-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x262144 : Shape := ⟨2, ![64, 262144]⟩
abbrev S262144x4 : Shape := ⟨2, ![262144, 4]⟩
abbrev S_ : Shape := ⟨0, ![]⟩

class Facts : Prop where
  bcast_S_S64x262144 : S_.BroadcastsInDim S64x262144 (![] : Fin 0 → Fin S64x262144.rank)
  reducesTo_S64x262144_S_d0_1 : S64x262144.ReducesTo [0, 1] S_
  h_S_ : 0 < S_.numel

variable [Facts]

def fn {F : FTy → Type} [FloatOps F] (main_arg0 : FVec F S64x262144 .f32) (main_arg1 : IVec S262144x4 32) (main_arg2 : IVec S262144x4 32) : IVec S_ 1 :=
  let main_v0 : FVec F S64x262144 .f32 := Host.absf main_arg0
  let main_cst : FVec F S_ .f32 := constant S_ .f32 0x7F800000#32
  let main_v1 : FVec F S64x262144 .f32 := broadcastInDim S64x262144 ![] bcast_S_S64x262144 main_cst
  let main_v2 : IVec S64x262144 1 := cmpf .olt main_v0 main_v1
  let main_c : IVec S_ 1 := constantI S_ 1 1#1
  let main_v3 : IVec S_ 1 := (fun x v => Host.reduce IntOp.andi x v reducesTo_S64x262144_S_d0_1 h_S_) main_v2 main_c
  main_v3
-- ==== Kernel.lean ====
abbrev S64x262144 : Shape := ⟨2, ![64, 262144]⟩
abbrev S262144x4 : Shape := ⟨2, ![262144, 4]⟩
abbrev S4x262144 : Shape := ⟨2, ![4, 262144]⟩
abbrev S64x4096 : Shape := ⟨2, ![64, 4096]⟩
abbrev S64x1024 : Shape := ⟨2, ![64, 1024]⟩
abbrev S4x1024 : Shape := ⟨2, ![4, 1024]⟩
abbrev S64x2048 : Shape := ⟨2, ![64, 2048]⟩
abbrev S1024x2048 : Shape := ⟨2, ![1024, 2048]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S64x262144, .f32⟩
  | .hbm, ⟨1, _⟩ => ⟨S262144x4, .i32⟩
  | .hbm, ⟨2, _⟩ => ⟨S262144x4, .i32⟩
  | .hbm, ⟨3, _⟩ => ⟨S4x262144, .i32⟩
  | .hbm, ⟨4, _⟩ => ⟨S4x262144, .i32⟩
  | .hbm, ⟨5, _⟩ => ⟨S64x4096, .f32⟩
  | .local _ .vmem, ⟨0, _⟩ => ⟨S64x1024, .f32⟩
  | .local _ .vmem, ⟨1, _⟩ => ⟨S64x1024, .f32⟩
  | .local _ .vmem, ⟨2, _⟩ => ⟨S4x1024, .i32⟩
  | .local _ .vmem, ⟨3, _⟩ => ⟨S4x1024, .i32⟩
  | .local _ .vmem, ⟨4, _⟩ => ⟨S4x1024, .i32⟩
  | .local _ .vmem, ⟨5, _⟩ => ⟨S4x1024, .i32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | _, _ => ⟨S64x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 256], ![false, false]⟩

def k0_cond2 (i : grid0.Coords) : BitVec 1 :=
  let arg1 : BitVec 32 := BitVec.ofNat 32 (i 1).val
  let c255_i32 : BitVec 32 := 255#32
  let v122 : BitVec 1 := Scalar.cmpi .eq arg1 c255_i32
  let v123 : BitVec 32 := Scalar.extui v122
  let c0_i32_39 : BitVec 32 := 0#32
  let v124 : BitVec 1 := Scalar.cmpi .ne v123 c0_i32_39
  v124

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S262144x4_S4x262144_1_0 : S262144x4.Transposes [1, 0] S4x262144
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S64x1024_S64x1024_0_0 : ∀ a, (![0, 0] : Fin 2 → Nat) a + S64x1024.size a ≤ S64x1024.size a
  h_S64x1024 : 0 < S64x1024.numel
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  iota_S1024x2048_d1_w32 : S1024x2048.Iotas .tc 32 [1]
  slices_S4x1024_o0_0_S1x1024 : S4x1024.Slices ![0, 0] S1x1024
  shapeCasts_S1x1024_S1024 : S1x1024.ShapeCasts S1024
  shapeCasts_S1024_S1x1024 : S1024.ShapeCasts S1x1024
  broadcasts_S1x1024_S64x1024 : S1x1024.Broadcasts S64x1024
  bitsLt_bf16_f32 : FTy.bits .bf16 < FTy.bits .f32
  shapeCasts_S1024_S1024x1 : S1024.ShapeCasts S1024x1
  broadcasts_S1024x1_S1024x2048 : S1024x1.Broadcasts S1024x2048
  slices_S4x1024_o1_0_S1x1024 : S4x1024.Slices ![1, 0] S1x1024
  slices_S4x1024_o2_0_S1x1024 : S4x1024.Slices ![2, 0] S1x1024
  slices_S4x1024_o3_0_S1x1024 : S4x1024.Slices ![3, 0] S1x1024
  dot_S64x1024_S1024x2048_S64x2048_1_0_0_1_n_n_wf : DotDims.WF S64x1024 S1024x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x262144.size a
  hwx0_0 : ∀ i : grid0.Coords, EltTy.bits .f32 = 32 ∨ (Rect.block (s := S64x262144) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024.size a ≤ S4x262144.size a
  hwx0_1 : ∀ i : grid0.Coords, EltTy.bits .i32 = 32 ∨ (Rect.block (s := S4x262144) S4x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x262144.size a
  hwx0_2 : ∀ i : grid0.Coords, EltTy.bits .i32 = 32 ∨ (Rect.block (s := S4x262144) S4x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x4096.size a
  hwx0_3 : ∀ i : grid0.Coords, EltTy.bits .f32 = 32 ∨ (Rect.block (s := S64x4096) S64x2048.size (cc0_transform_3 i) (hinb0_3 i)).WholeWords (EltTy.packing .f32)

variable [Facts₀]

def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf

abbrev win0_0 : Pipeline.Window sig grid0 :=
  Pipeline.Window.ofSpec (Memref.whole main_arg0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x262144 : Shape := ⟨2, ![64, 262144]⟩
abbrev S262144x4 : Shape := ⟨2, ![262144, 4]⟩
abbrev S_ : Shape := ⟨0, ![]⟩
abbrev S1048576 : Shape := ⟨1, ![1048576]⟩
abbrev S64x262144x1 : Shape := ⟨3, ![64, 262144, 1]⟩
abbrev S1x262144x4 : Shape := ⟨3, ![1, 262144, 4]⟩
abbrev S64x262144x4 : Shape := ⟨3, ![64, 262144, 4]⟩
abbrev S64x1048576 : Shape := ⟨2, ![64, 1048576]⟩
abbrev S4096 : Shape := ⟨1, ![4096]⟩
abbrev S1048576x1 : Shape := ⟨2, ![1048576, 1]⟩
abbrev S64x4096 : Shape := ⟨2, ![64, 4096]⟩

abbrev nBuf : Space → Nat
  | .hbm => 22
  | .vmem => 0
  | .smem => 0
  | _ => 0

abbrev bufTy : (tb : Table) → Fin (tcTables nBuf tb) → BufTy
  | .hbm, ⟨0, _⟩ => ⟨S64x262144, .f32⟩
  | .hbm, ⟨1, _⟩ => ⟨S262144x4, .i32⟩
  | .hbm, ⟨2, _⟩ => ⟨S262144x4, .i32⟩
  | .hbm, ⟨3, _⟩ => ⟨S_, .i32⟩
  | .hbm, ⟨4, _⟩ => ⟨S262144x4, .i32⟩
  | .hbm, ⟨5, _⟩ => ⟨S262144x4, .i32⟩
  | .hbm, ⟨6, _⟩ => ⟨S_, .i32⟩
  | .hbm, ⟨7, _⟩ => ⟨S262144x4, .i32⟩
  | .hbm, ⟨8, _⟩ => ⟨S262144x4, .i32⟩
  | .hbm, ⟨9, _⟩ => ⟨S262144x4, .f32⟩
  | .hbm, ⟨10, _⟩ => ⟨S1048576, .i32⟩
  | .hbm, ⟨11, _⟩ => ⟨S64x262144x1, .f32⟩
  | .hbm, ⟨12, _⟩ => ⟨S1x262144x4, .f32⟩
  | .hbm, ⟨13, _⟩ => ⟨S64x262144x4, .f32⟩
  | .hbm, ⟨14, _⟩ => ⟨S64x262144x4, .f32⟩
  | .hbm, ⟨15, _⟩ => ⟨S64x262144x4, .f32⟩
  | .hbm, ⟨16, _⟩ => ⟨S64x1048576, .f32⟩
  | .hbm, ⟨17, _⟩ => ⟨S_, .f32⟩
  | .hbm, ⟨18, _⟩ => ⟨S4096, .f32⟩
  | .hbm, ⟨19, _⟩ => ⟨S1048576x1, .i32⟩
  | .hbm, ⟨20, _⟩ => ⟨S64x4096, .f32⟩
  | .hbm, ⟨21, _⟩ => ⟨S64x4096, .f32⟩
  | _, _ => ⟨S64x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S_S262144x4 : S_.BroadcastsInDim S262144x4 (![] : Fin 0 → Fin S262144x4.rank)
  shapeCasts_S262144x4_S1048576 : S262144x4.ShapeCasts S1048576
  bcast_S64x262144_S64x262144x1_0_1 : S64x262144.BroadcastsInDim S64x262144x1 (![0, 1] : Fin 2 → Fin S64x262144x1.rank)
  bcast_S262144x4_S1x262144x4_1_2 : S262144x4.BroadcastsInDim S1x262144x4 (![1, 2] : Fin 2 → Fin S1x262144x4.rank)
  bcast_S64x262144x1_S64x262144x4_0_1_2 : S64x262144x1.BroadcastsInDim S64x262144x4 (![0, 1, 2] : Fin 3 → Fin S64x262144x4.rank)
  bcast_S1x262144x4_S64x262144x4_0_1_2 : S1x262144x4.BroadcastsInDim S64x262144x4 (![0, 1, 2] : Fin 3 → Fin S64x262144x4.rank)
  shapeCasts_S64x262144x4_S64x1048576 : S64x262144x4.ShapeCasts S64x1048576
  bcast_S_S4096 : S_.BroadcastsInDim S4096 (![] : Fin 0 → Fin S4096.rank)
  bcast_S1048576_S1048576x1_0 : S1048576.BroadcastsInDim S1048576x1 (![0] : Fin 1 → Fin S1048576x1.rank)
  bcast_S4096_S64x4096_1 : S4096.BroadcastsInDim S64x4096 (![1] : Fin 1 → Fin S64x4096.rank)
  scatter_S64x4096_S1048576x1_S64x1048576_0_1_1_1_wf : ScatterDims.WF S64x4096 S1048576x1 S64x1048576 [0] [1] [1] 1

variable [Facts₀]

def scatter_S64x4096_S1048576x1_S64x1048576_0_1_1_1 : ScatterDims S64x4096 S1048576x1 S64x1048576 where
  updateWindowDims := [0]
  insertedWindowDims := [1]
  scatterDimsToOperandDims := [1]
  indexVectorDim := 1
  wf := scatter_S64x4096_S1048576x1_S64x1048576_0_1_1_1_wf

class Facts : Prop extends Facts₀ where

variable [Facts]
-- ==== Proof.Pieces.lean ====
import proofs.«423473_j12584254177373_3_alg».proof.Proof.Gen.KernelIdeal.Frame
import Idealize.ShloMosaic.Lib.Pipeline.Value
import Idealize.ShloMosaic.Lib.Tactic

/-! # What one grid point leaves in the accumulator

At a grid point the body updates the `64 × 2048` accumulator four times, once per hash: each update loads the
accumulator whole, adds one matrix product and stores it back whole. So what the point leaves is the four payloads
composed, the first over what the accumulator held before the point: the zero block at the first point of a column
tile's run (where the body has just stored zeros), what the point before left otherwise. At the last point of a run
the output block is stored with what the accumulator then holds. -/

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The four updates of one point, composed: over `acc`, with the point's blocks `x0` (of `x`), `x1` (slot words) and
    `x2` (sign bits). -/
def pointAcc (i : grid0.Coords) (x0 : Vec F S64x1024 .f32) (x1 x2 : Vec F S4x1024 .i32) (acc : Vec F S64x2048 .f32) :
    Vec F S64x2048 .f32 :=
  k0_pay9 x0 (k0_pay2 x1) (k0_pay3 x2) (iota .tc S1024x2048 32 [1] iota_S1024x2048_d1_w32)
    (Scalar.muli (BitVec.ofNat 32 (i 0).val) 2048#32)
    (k0_pay8 (k0_pay6 x0 (k0_pay3 x2))
      (k0_pay7 (k0_pay2 x1) (iota .tc S1024x2048 32 [1] iota_S1024x2048_d1_w32) (Scalar.muli (BitVec.ofNat 32 (i 0).val) 2048#32))
      (Scalar.ofBits .f32 0x3F800000#32) (Scalar.ofBits .f32 0x00000000#32)
      (k0_pay5 x0 (k0_pay2 x1) (k0_pay3 x2) (iota .tc S1024x2048 32 [1] iota_S1024x2048_d1_w32)
        (Scalar.muli (BitVec.ofNat 32 (i 0).val) 2048#32)
        (k0_pay4 i x0 x1 x2 acc)))

/-- The first point of a run leaves the four updates over the zero block it has just stored. -/
theorem sout_A (c : Dev nD) (i : grid0.Coords) (arg2 : Memref sig .tc .vmem S64x1024 .f32) (harg2 : arg2.IsWhole) (arg3 : Memref sig .tc .vmem S4x1024 .i32) (harg3 : arg3.IsWhole) (arg4 : Memref sig .tc .vmem S4x1024 .i32) (harg4 : arg4.IsWhole) (arg5 : Memref sig .tc .vmem S64x2048 .f32) (harg5 : arg5.IsWhole) (arg6 : Memref sig .tc .vmem S64x2048 .f32) (harg6 : arg6.IsWhole) (hc0 : cond0_0 i) (hc1 : ¬cond0_1 i)
    (x0 : Vec F S64x1024 .f32) (x1 : Vec F S4x1024 .i32) (x2 : Vec F S4x1024 .i32) :
    sout0_A_0 c i arg2 harg2 arg3 harg3 arg4 harg4 arg5 harg5 arg6 harg6 hc0 hc1 x0 x1 x2 = pointAcc i x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S64x2048) hz]
  simp only [View.readCov_cons_toLoadRect, View.readAt_eq_ld, harg2.read_unread, harg3.read_unread, harg4.read_unread, harg5.read_unread, harg6.read_unread, View.ld_unit_zero (S := S64x2048) hz, View.ld_unit_zero (S := S64x1024) hz, View.ld_unit_zero (S := S4x1024) hz]
  rfl

/-- A point inside a run (neither first nor last) leaves the four updates over what the point before left. -/
theorem sout_B (c : Dev nD) (i : grid0.Coords) (arg2 : Memref sig .tc .vmem S64x1024 .f32) (harg2 : arg2.IsWhole) (arg3 : Memref sig .tc .vmem S4x1024 .i32) (harg3 : arg3.IsWhole) (arg4 : Memref sig .tc .vmem S4x1024 .i32) (harg4 : arg4.IsWhole) (arg5 : Memref sig .tc .vmem S64x2048 .f32) (harg5 : arg5.IsWhole) (arg6 : Memref sig .tc .vmem S64x2048 .f32) (harg6 : arg6.IsWhole) (hc0 : ¬cond0_0 i) (hc1 : ¬cond0_1 i)
    (x0 : Vec F S64x1024 .f32) (x1 : Vec F S4x1024 .i32) (x2 : Vec F S4x1024 .i32) (xs0 : Vec F S64x2048 .f32) :
    sout0_B_0 c i arg2 harg2 arg3 harg3 arg4 harg4 arg5 harg5 arg6 harg6 hc0 hc1 x0 x1 x2 xs0 = pointAcc i x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_cons_unit_zero (S := S64x2048) hz]
  simp only [View.readCov_cons_toLoadRect, View.readAt_eq_ld, harg2.read_unread, harg3.read_unread, harg4.read_unread, harg5.read_unread, harg6.read_unread, View.ld_unit_zero (S := S64x2048) hz, View.ld_unit_zero (S := S64x1024) hz, View.ld_unit_zero (S := S4x1024) hz]
  rfl

/-- The last point of a run leaves the same in the accumulator, -/
theorem sout_C (c : Dev nD) (i : grid0.Coords) (arg2 : Memref sig .tc .vmem S64x1024 .f32) (harg2 : arg2.IsWhole) (arg3 : Memref sig .tc .vmem S4x1024 .i32) (harg3 : arg3.IsWhole) (arg4 : Memref sig .tc .vmem S4x1024 .i32) (harg4 : arg4.IsWhole) (arg5 : Memref sig .tc .vmem S64x2048 .f32) (harg5 : arg5.IsWhole) (arg6 : Memref sig .tc .vmem S64x2048 .f32) (harg6 : arg6.IsWhole) (hc0 : ¬cond0_0 i) (hc1 : cond0_1 i)
    (x0 : Vec F S64x1024 .f32) (x1 : Vec F S4x1024 .i32) (x2 : Vec F S4x1024 .i32) (xs0 : Vec F S64x2048 .f32) :
    sout0_C_0 c i arg2 harg2 arg3 harg3 arg4 harg4 arg5 harg5 arg6 harg6 hc0 hc1 x0 x1 x2 xs0 = pointAcc i x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_cons_unit_zero (S := S64x2048) hz]
  simp only [View.readCov_cons_toLoadRect, View.readAt_eq_ld, harg2.read_unread, harg3.read_unread, harg4.read_unread, harg5.read_unread, harg6.read_unread, View.ld_unit_zero (S := S64x2048) hz, View.ld_unit_zero (S := S64x1024) hz, View.ld_unit_zero (S := S4x1024) hz]
  rfl

/-- and stores the output block with it: the accumulator after the four updates, loaded back. -/
theorem out_C (c : Dev nD) (i : grid0.Coords) (arg2 : Memref sig .tc .vmem S64x1024 .f32) (harg2 : arg2.IsWhole) (arg3 : Memref sig .tc .vmem S4x1024 .i32) (harg3 : arg3.IsWhole) (arg4 : Memref sig .tc .vmem S4x1024 .i32) (harg4 : arg4.IsWhole) (arg5 : Memref sig .tc .vmem S64x2048 .f32) (harg5 : arg5.IsWhole) (arg6 : Memref sig .tc .vmem S64x2048 .f32) (harg6 : arg6.IsWhole) (hc0 : ¬cond0_0 i) (hc1 : cond0_1 i)
    (x0 : Vec F S64x1024 .f32) (x1 : Vec F S4x1024 .i32) (x2 : Vec F S4x1024 .i32) (xs0 : Vec F S64x2048 .f32) :
    out0_C_3 c i arg2 harg2 arg3 harg3 arg4 harg4 arg5 harg5 arg6 harg6 hc0 hc1 x0 x1 x2 xs0 = pointAcc i x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_cons_unit_zero (S := S64x2048) hz]
  simp only [View.readCov_cons_toLoadRect, View.readAt_eq_ld, harg2.read_unread, harg3.read_unread, harg4.read_unread, harg5.read_unread, harg6.read_unread, View.ld_unit_zero (S := S64x2048) hz, View.ld_unit_zero (S := S64x1024) hz, View.ld_unit_zero (S := S4x1024) hz]
  rfl

end Cert.KernelIdeal.Pieces

end
-- ==== Proof.Spec.lean ====
import Idealize.ShloMosaic.PureOps.Ideal
import Idealize.ShloMosaic.Lib.ValueIdx

/-! # The sparse sign projection, as one function of the three argument arrays

`x` is a `64 × 262144` array of extended reals; `slot` and `bit` are `262144 × 4` tables of 32-bit words. Every
pair `(D, c)` of a source column `D` and one of its four hashes `c` names a target column — the table word
`slot[D, c]` read as a SIGNED integer — and a sign factor `2·bit[D, c] − 1` (computed on 32-bit words, then read as a
signed integer). Output entry `(b, p)` is the sum, over all pairs whose target column is `p`, of `x[b, D]` times the
pair's sign factor. A pair whose target is not one of the `4096` columns contributes to no entry. -/

open scoped BigOperators

noncomputable section

namespace Cert.SignProj

open Idealize.ShloMosaic Idealize.ShloMosaic.ValueIdx

/-- The sign factor of one table word: the word doubled less one (on 32-bit words), read as a signed integer. -/
def signOf (w : BitVec 32) : EReal := FloatOps.sitofp (F := Ideal) .f32 (IntOp.subi (IntOp.muli 2#32 w) 1#32)

/-- What the pair `(D, c)` contributes to output entry `(b, p)`: `x[b, D]` times its sign factor when its target
    column is `p`, nothing otherwise. -/
def term (x : (⟨2, ![64, 262144]⟩ : Shape).Idx → EReal) (slot bit : IVec ⟨2, ![262144, 4]⟩ 32)
    (b : Fin 64) (p : Fin 4096) (D : Fin 262144) (c : Fin 4) : EReal :=
  if (slot (ix2 D c)).toInt = (p.val : Int) then x (ix2 b D) * signOf (bit (ix2 D c)) else 0

/-- The projection: entry `(b, p)` sums the contributions of all pairs. -/
def proj (x : (⟨2, ![64, 262144]⟩ : Shape).Idx → EReal) (slot bit : IVec ⟨2, ![262144, 4]⟩ 32) :
    (⟨2, ![64, 4096]⟩ : Shape).Idx → EReal :=
  fun i => ∑ D : Fin 262144, ∑ c : Fin 4, term x slot bit (i 0) (i 1) D c

/-- Source column `d` of tile `di`: the tiles are `1024` columns wide. -/
abbrev tileCol (di : Fin 256) (d : Fin 1024) : Fin 262144 :=
  ⟨di.val * 1024 + d.val, by have h1 := di.isLt; have h2 := d.isLt; omega⟩

/-- The pair with flat position `k = 4·D + c`. -/
abbrev flatRow (k : Fin 1048576) : Fin 262144 := ⟨k.val / 4, by have := k.isLt; omega⟩
abbrev flatHash (k : Fin 1048576) : Fin 4 := ⟨k.val % 4, Nat.mod_lt _ (by decide)⟩

/-- A sum over the source columns, tile by tile. -/
theorem sum_tiles {M : Type*} [AddCommMonoid M] (f : Fin 262144 → M) :
    ∑ D : Fin 262144, f D = ∑ di : Fin 256, ∑ d : Fin 1024, f (tileCol di d) := by
  rw [← Finset.sum_product' (f := fun di d => f (tileCol di d)), Finset.univ_product_univ]
  refine (Fintype.sum_equiv (finProdFinEquiv (m := 256) (n := 1024)) _ _ fun q => ?_).symm
  obtain ⟨di, d⟩ := q
  have e : tileCol di d = finProdFinEquiv (di, d) := Fin.ext (by
    show di.val * 1024 + d.val = d.val + 1024 * di.val; omega)
  rw [e]

/-- A sum over the flat positions, pair by pair. -/
theorem sum_flat {M : Type*} [AddCommMonoid M] (f : Fin 262144 → Fin 4 → M) :
    ∑ k : Fin 1048576, f (flatRow k) (flatHash k) = ∑ D : Fin 262144, ∑ c : Fin 4, f D c := by
  rw [← Finset.sum_product' (f := f), Finset.univ_product_univ]
  refine (Fintype.sum_equiv (finProdFinEquiv (m := 262144) (n := 4)) _ _ fun q => ?_).symm
  obtain ⟨D, c⟩ := q
  have hD := D.isLt; have hc := c.isLt
  have e1 : flatRow (finProdFinEquiv (D, c)) = D := Fin.ext (by
    show (c.val + 4 * D.val) / 4 = D.val; omega)
  have e2 : flatHash (finProdFinEquiv (D, c)) = c := Fin.ext (by
    show (c.val + 4 * D.val) % 4 = c.val; omega)
  rw [e1, e2]

/-- The projection tile by tile, the four hashes outside the columns of a tile: the order a tiled accumulation
    meets the pairs in. -/
theorem proj_tiles (x : (⟨2, ![64, 262144]⟩ : Shape).Idx → EReal) (slot bit : IVec ⟨2, ![262144, 4]⟩ 32)
    (i : (⟨2, ![64, 4096]⟩ : Shape).Idx) :
    proj x slot bit i = ∑ di : Fin 256, ∑ c : Fin 4, ∑ d : Fin 1024, term x slot bit (i 0) (i 1) (tileCol di d) c := by
  unfold proj
  rw [sum_tiles]
  refine Finset.sum_congr rfl fun di _ => ?_
  rw [Finset.sum_comm]

end Cert.SignProj

end
-- ==== Proof.PointUpdate.lean ====
import proofs.«423473_j12584254177373_3_alg».proof.Proof.Gen.KernelIdeal.Skeleton
import proofs.«423473_j12584254177373_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

/-! # One grid point's four updates of the accumulator, read at an entry

At a grid point the body adds to the accumulator, for each of the four hashes `c` in turn, the product of the
`64 × 1024` tile of `x` with its columns scaled by the sign factors of hash `c`, and the `1024 × 2048` 0/1 matrix
whose entry `(d, j)` is one exactly when the slot word of `(d, c)` less the tile's column offset is the lane word `j`.
Read at entry `(b, j)`, each update adds the sum over the tile's columns `d` of `x[b, d]` times the sign factor where
the slot word, as a signed integer, is the column `offset + j`, and nothing where it is not. -/

open scoped BigOperators

noncomputable section

namespace Cert.KernelIdeal.PointValue

open Cert.KernelIdeal Cert.KernelIdeal.Gen Idealize.ShloMosaic Idealize.ShloMosaic.ValueIdx Cert.SignProj

/-- The lane numbers `0 … 2047` along axis 1, as the body builds them. -/
abbrev lanes : IVec S1024x2048 32 := iota .tc S1024x2048 32 [1] iota_S1024x2048_d1_w32

/-- The first output column of the point's column tile, as a 32-bit word. -/
abbrev colOff (i : grid0.Coords) : BitVec 32 := Scalar.muli (BitVec.ofNat 32 (i 0).val) 2048#32

/-- What column `d` of the tile contributes through hash `c` to entry `(b, j)` of the point's column tile. -/
def hit (i : grid0.Coords) (x0 : Vec Ideal S64x1024 .f32) (x1 x2 : Vec Ideal S4x1024 .i32) (b : Fin 64) (j : Fin 2048)
    (c : Fin 4) (d : Fin 1024) : EReal :=
  if (x1 (ix2 c d) : BitVec 32).toInt = (((i 0).val * 2048 + j.val : Nat) : Int) then x0 (ix2 b d) * signOf (x2 (ix2 c d)) else 0

/-! ## Words

The tile's column offset is `2048·p` for a tile number `p < 2`, and a lane is `j < 2048`, so `2048·p + j < 4096`: far below
`2³¹`. Hence "the word less the offset word is the lane word" (an equation modulo `2³²`) says that the word is the word of
`2048·p + j`, and a word is that one exactly when its signed reading is that number. -/

/-- A word less the offset word of tile `p` is the lane word `j` exactly when the word, read signed, is `2048·p + j`. -/
theorem sub_off_eq_lane_iff (w : BitVec 32) (p j : Nat) (hp : p < 2) (hj : j < 2048) :
    w - BitVec.ofNat 32 p * 2048#32 = BitVec.ofNat 32 j ↔ w.toInt = ((p * 2048 + j : Nat) : Int) := by
  rw [BitVec.toInt_eq_toNat_cond]
  have hw := w.isLt
  constructor
  · intro h
    have e := congrArg BitVec.toNat h
    simp only [BitVec.toNat_sub, BitVec.toNat_mul, BitVec.toNat_ofNat] at e
    split <;> omega
  · intro h
    apply BitVec.eq_of_toNat_eq
    simp only [BitVec.toNat_sub, BitVec.toNat_mul, BitVec.toNat_ofNat]
    split at h <;> omega

/-- A select on "the two words are equal" is the `if` on their equality. -/
theorem select_cmpi_eq {α : Type} (u v : BitVec 32) (A B : α) :
    Scalar.select (IntOp.cmpi .eq u v) A B = if u = v then A else B := by
  show (if BitVec.ofBool (u == v) = 1#1 then A else B) = if u = v then A else B
  by_cases h : u = v
  · have hb : (u == v) = true := beq_iff_eq.mpr h
    rw [hb, if_pos h, if_pos (by decide)]
  · have hb : (u == v) = false := beq_eq_false_iff_ne.mpr h
    rw [hb, if_neg h, if_neg (by decide)]

/-! ## Two column layouts

A vector viewed as a one-column matrix, and a one-column matrix repeated along its rows. -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, n]` reads, at `(p, q)`, the operand's one column at `p`. -/
theorem broadcastTo_a1_ab_apply {α : Type} {a n : ℕ} (v : (⟨2, ![a, 1]⟩ : Shape).Idx → α)
    (h : (⟨2, ![a, 1]⟩ : Shape).Broadcasts ⟨2, ![a, n]⟩) (p : Fin a) (q : Fin n) :
    broadcastTo ⟨2, ![a, n]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The pieces of an update

Each of the four updates is built from the same five pieces: a row of a table as a vector; the tile of `x` with its
columns scaled; the comparison of the shifted slot words with the lanes; the 0/1 matrix selected by it; and the product
added to the accumulator. -/

/-- Row `c` of a four-row table, as a vector of its `1024` words. -/
def rowOf (c : Nat) (v : IVec S4x1024 32) (h : S4x1024.Slices ![c, 0] S1x1024) : IVec S1024 32 :=
  shapeCast S1024 (extractStridedSlice S1x1024 ![c, 0] v h) shapeCasts_S1x1024_S1024

/-- The tile with column `d` scaled by twice word `d` of `r` less one, read as a signed integer. -/
def scaled (x : FVec Ideal S64x1024 .f32) (r : IVec S1024 32) : FVec Ideal S64x1024 .bf16 :=
  truncf .bf16 (mulf x (broadcastTo S64x1024 (shapeCast S1x1024
    (sitofp .f32 (subi (muli (broadcast S1024 2#32) r) (broadcast S1024 1#32))) shapeCasts_S1024_S1x1024)
    broadcasts_S1x1024_S64x1024)) bitsLt_bf16_f32

/-- Where word `d` of `r` less the offset is the word of `ln` at `(d, j)`. -/
def onLane (r : IVec S1024 32) (ln : IVec S1024x2048 32) (off : BitVec 32) : IVec S1024x2048 1 :=
  cmpi .eq (broadcastTo S1024x2048 (shapeCast S1024x1 (subi r (broadcast S1024 off)) shapeCasts_S1024_S1024x1)
    broadcasts_S1024x1_S1024x2048) ln

/-- The matrix that is `one` where the condition holds and `zero` elsewhere. -/
def chosen (m : IVec S1024x2048 1) (one zero : Ideal .f32) : FVec Ideal S1024x2048 .bf16 :=
  truncf .bf16 (select m (broadcast S1024x2048 one) (broadcast S1024x2048 zero)) bitsLt_bf16_f32

/-- The accumulator plus the product of the two factors. -/
def plusProduct (l : FVec Ideal S64x1024 .bf16) (r : FVec Ideal S1024x2048 .bf16) (acc : FVec Ideal S64x2048 .f32) :
    FVec Ideal S64x2048 .f32 :=
  shapeCast S64x2048 (addf acc (matmul dot_S64x1024_S1024x2048_S64x2048_1_0_0_1_n_n none l r
    (constant S64x2048 .f32 0x00000000#32))) shapeCasts_S64x2048_S64x2048

/-- The row vector at `d` is the table at `(c, d)`. -/
theorem rowOf_apply (c : Fin 4) (v : IVec S4x1024 32) (h : S4x1024.Slices ![c.val, 0] S1x1024) (d : Fin 1024) :
    rowOf c.val v h (ix1 d) = v (ix2 c d) := by
  unfold rowOf
  rw [shapeCast_1a_a_apply, slice2_axis0_eq]
  rfl

/-- The scaled tile at `(b, d)`: the tile's entry times the sign factor of word `d`. -/
theorem scaled_apply (x : FVec Ideal S64x1024 .f32) (r : IVec S1024 32) (b : Fin 64) (d : Fin 1024) :
    scaled x r (ix2 b d) = x (ix2 b d) * signOf (r (ix1 d)) := by
  unfold scaled
  rw [truncf_apply, mulf_apply, broadcastTo_1b_ab_apply, shapeCast_a_1a_apply]
  rfl

/-- The comparison at `(d, j)` compares word `d` less the offset with the other operand there. -/
theorem onLane_apply (r : IVec S1024 32) (ln : IVec S1024x2048 32) (off : BitVec 32) (d : Fin 1024) (j : Fin 2048) :
    onLane r ln off (ix2 d j) = IntOp.cmpi .eq (r (ix1 d) - off) (ln (ix2 d j)) := by
  unfold onLane
  show IntOp.cmpi .eq (broadcastTo S1024x2048 _ broadcasts_S1024x1_S1024x2048 (ix2 d j)) (ln (ix2 d j)) = _
  rw [broadcastTo_a1_ab_apply, shapeCast_a_a1_apply]
  rfl

/-- The lane numbers at `(d, j)` are the word of `j`. -/
theorem lanes_apply (d : Fin 1024) (j : Fin 2048) : lanes (ix2 d j) = BitVec.ofNat 32 j.val :=
  iota_single_apply .tc S1024x2048 32 1 iota_S1024x2048_d1_w32 (ix2 d j)

/-- The selected matrix at an index selects between the two values. -/
theorem chosen_apply (m : IVec S1024x2048 1) (one zero : Ideal .f32) (d : Fin 1024) (j : Fin 2048) :
    chosen m one zero (ix2 d j) = Scalar.select (m (ix2 d j)) one zero := rfl

/-! ## The product at an entry

The contraction runs over the one shared axis: the left factor's columns, the right factor's rows. -/

/-- The left factor is read at the output's row … -/
theorem lhs_axis0 (o : S64x2048.Idx) (q : dot_S64x1024_S1024x2048_S64x2048_1_0_0_1_n_n.contr.Idx) :
    (dot_S64x1024_S1024x2048_S64x2048_1_0_0_1_n_n.lhsIdx o q 0).val = (o 0).val := by
  unfold DotDims.lhsIdx
  rw [dif_neg (show ¬(0 : Fin S64x1024.rank) ∈ dot_S64x1024_S1024x2048_S64x2048_1_0_0_1_n_n.lhsBatch by decide),
    dif_pos (show (0 : Fin S64x1024.rank) ∈ dot_S64x1024_S1024x2048_S64x2048_1_0_0_1_n_n.lhsNonContracting by decide)]
  rfl

/-- … and at the contraction position as its column. -/
theorem lhs_axis1 (o : S64x2048.Idx) (q : dot_S64x1024_S1024x2048_S64x2048_1_0_0_1_n_n.contr.Idx) :
    (dot_S64x1024_S1024x2048_S64x2048_1_0_0_1_n_n.lhsIdx o q 1).val = (q ⟨0, by decide⟩).val :=
  dot_S64x1024_S1024x2048_S64x2048_1_0_0_1_n_n.lhsIdx_val_of_single rfl o q

/-- The right factor is read at the contraction position as its row … -/
theorem rhs_axis0 (o : S64x2048.Idx) (q : dot_S64x1024_S1024x2048_S64x2048_1_0_0_1_n_n.contr.Idx) :
    (dot_S64x1024_S1024x2048_S64x2048_1_0_0_1_n_n.rhsIdx o q 0).val = (q ⟨0, by decide⟩).val :=
  dot_S64x1024_S1024x2048_S64x2048_1_0_0_1_n_n.rhsIdx_val_of_single rfl o q

/-- … and at the output's column. -/
theorem rhs_axis1 (o : S64x2048.Idx) (q : dot_S64x1024_S1024x2048_S64x2048_1_0_0_1_n_n.contr.Idx) :
    (dot_S64x1024_S1024x2048_S64x2048_1_0_0_1_n_n.rhsIdx o q 1).val = (o 1).val := by
  unfold DotDims.rhsIdx
  rw [dif_neg (show ¬(1 : Fin S1024x2048.rank) ∈ dot_S64x1024_S1024x2048_S64x2048_1_0_0_1_n_n.rhsBatch by decide),
    dif_pos (show (1 : Fin S1024x2048.rank) ∈ dot_S64x1024_S1024x2048_S64x2048_1_0_0_1_n_n.rhsNonContracting by decide)]
  rfl

/-- The accumulator plus the product, at entry `(b, j)`: the accumulator there plus the sum over the shared axis. -/
theorem plusProduct_apply (l : FVec Ideal S64x1024 .bf16) (r : FVec Ideal S1024x2048 .bf16)
    (acc : FVec Ideal S64x2048 .f32) (b : Fin 64) (j : Fin 2048) :
    plusProduct l r acc (ix2 b j) = acc (ix2 b j) + ∑ d : Fin 1024, l (ix2 b d) * r (ix2 d j) := by
  unfold plusProduct
  rw [shapeCast_self, addf_apply]
  simp only [matmul]
  rw [Ideal.matmul_constant_zero_apply,
    ← Equiv.sum_comp (contrEquiv1 dot_S64x1024_S1024x2048_S64x2048_1_0_0_1_n_n 1024 rfl rfl).symm]
  refine congrArg (acc (ix2 b j) + ·) (Finset.sum_congr rfl fun k _ => ?_)
  have hk := contrEquiv1_symm_val dot_S64x1024_S1024x2048_S64x2048_1_0_0_1_n_n 1024 rfl rfl k
  have el : dot_S64x1024_S1024x2048_S64x2048_1_0_0_1_n_n.lhsIdx (ix2 b j)
      ((contrEquiv1 dot_S64x1024_S1024x2048_S64x2048_1_0_0_1_n_n 1024 rfl rfl).symm k) = ix2 b k :=
    funext fun a => Fin.ext (by
      match a with
      | ⟨0, _⟩ => exact lhs_axis0 _ _
      | ⟨1, _⟩ => exact (lhs_axis1 _ _).trans hk)
  have er : dot_S64x1024_S1024x2048_S64x2048_1_0_0_1_n_n.rhsIdx (ix2 b j)
      ((contrEquiv1 dot_S64x1024_S1024x2048_S64x2048_1_0_0_1_n_n 1024 rfl rfl).symm k) = ix2 k j :=
    funext fun a => Fin.ext (by
      match a with
      | ⟨0, _⟩ => exact (rhs_axis0 _ _).trans hk
      | ⟨1, _⟩ => exact rhs_axis1 _ _)
  rw [el, er]

/-! ## An update at an entry -/

variable (i : grid0.Coords) (x0 : Vec Ideal S64x1024 .f32) (x1 x2 : Vec Ideal S4x1024 .i32)
  (acc : Vec Ideal S64x2048 .f32) (b : Fin 64) (j : Fin 2048)

/-- The two tables pass through a cast to their own shape unchanged. -/
theorem pay2_eq : k0_pay2 (F := Ideal) x1 = x1 := by
  unfold k0_pay2; exact shapeCast_self _ _
theorem pay3_eq : k0_pay3 (F := Ideal) x2 = x2 := by
  unfold k0_pay3; exact shapeCast_self _ _

/-- The update through hash `c`, in its pieces, at entry `(b, j)`. -/
theorem update_apply (c : Fin 4) (h : S4x1024.Slices ![c.val, 0] S1x1024) :
    plusProduct (scaled x0 (rowOf c.val (k0_pay3 x2) h))
        (chosen (onLane (rowOf c.val (k0_pay2 x1) h) lanes (colOff i))
          (Scalar.ofBits .f32 0x3F800000#32) (Scalar.ofBits .f32 0x00000000#32)) acc (ix2 b j)
      = acc (ix2 b j) + ∑ d : Fin 1024, hit i x0 x1 x2 b j c d := by
  rw [plusProduct_apply]
  refine congrArg (acc (ix2 b j) + ·) (Finset.sum_congr rfl fun d _ => ?_)
  rw [scaled_apply, chosen_apply, onLane_apply, rowOf_apply, rowOf_apply, lanes_apply, select_cmpi_eq, pay2_eq, pay3_eq]
  unfold hit
  have hw : (x1 (ix2 c d) : BitVec 32) - colOff i = BitVec.ofNat 32 j.val
      ↔ (x1 (ix2 c d) : BitVec 32).toInt = (((i 0).val * 2048 + j.val : Nat) : Int) :=
    sub_off_eq_lane_iff (x1 (ix2 c d)) (i 0).val j.val (i 0).isLt j.isLt
  by_cases hc : (x1 (ix2 c d) : BitVec 32).toInt = (((i 0).val * 2048 + j.val : Nat) : Int)
  · rw [if_pos hc, if_pos (hw.mpr hc)]
    show _ * Ideal.ofBits .f32 0x3F800000#32 = _
    rw [Ideal.ofBits_one_f32, mul_one]
  · rw [if_neg hc, if_neg (fun e => hc (hw.mp e))]
    show _ * Ideal.ofBits .f32 0x00000000#32 = _
    rw [Ideal.ofBits_zero_f32, mul_zero]

/-- The first update (hash 0). -/
theorem pay4_apply :
    k0_pay4 (F := Ideal) i x0 x1 x2 acc (ix2 b j) = acc (ix2 b j) + ∑ d : Fin 1024, hit i x0 x1 x2 b j 0 d := by
  unfold k0_pay4
  exact update_apply i x0 x1 x2 acc b j 0 slices_S4x1024_o0_0_S1x1024

/-- The second update (hash 1). -/
theorem pay5_apply :
    k0_pay5 (F := Ideal) x0 (k0_pay2 x1) (k0_pay3 x2) lanes (colOff i) acc (ix2 b j)
      = acc (ix2 b j) + ∑ d : Fin 1024, hit i x0 x1 x2 b j 1 d := by
  unfold k0_pay5
  exact update_apply i x0 x1 x2 acc b j 1 slices_S4x1024_o1_0_S1x1024

/-- The third update (hash 2). -/
theorem pay8_apply :
    k0_pay8 (F := Ideal) (k0_pay6 x0 (k0_pay3 x2)) (k0_pay7 (k0_pay2 x1) lanes (colOff i))
        (Scalar.ofBits .f32 0x3F800000#32) (Scalar.ofBits .f32 0x00000000#32) acc (ix2 b j)
      = acc (ix2 b j) + ∑ d : Fin 1024, hit i x0 x1 x2 b j 2 d := by
  unfold k0_pay8 k0_pay6 k0_pay7
  exact update_apply i x0 x1 x2 acc b j 2 slices_S4x1024_o2_0_S1x1024

/-- The fourth update (hash 3). -/
theorem pay9_apply :
    k0_pay9 (F := Ideal) x0 (k0_pay2 x1) (k0_pay3 x2) lanes (colOff i) acc (ix2 b j)
      = acc (ix2 b j) + ∑ d : Fin 1024, hit i x0 x1 x2 b j 3 d := by
  unfold k0_pay9
  exact update_apply i x0 x1 x2 acc b j 3 slices_S4x1024_o3_0_S1x1024

end Cert.KernelIdeal.PointValue

end
-- ==== Proof.KernelSide.lean ====
import proofs.«423473_j12584254177373_3_alg».proof.Proof.Gen.KernelIdeal.Value
import proofs.«423473_j12584254177373_3_alg».proof.Proof.Pieces
import proofs.«423473_j12584254177373_3_alg».proof.Proof.PointUpdate
import proofs.«423473_j12584254177373_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

/-! # The kernel's result array is the projection

The grid is `2 × 256`: point `t` works on output column tile `t / 256` (2048 columns wide) and source tile `t % 256`
(1024 columns of `x`, and the same 1024 rows of the two tables, which the program transposes first so that a block is
`4 × 1024`). The accumulator is zeroed at the first point of a column tile's run of 256 points, each point adds its
source tile's contribution — the sum over the tile's `(column, hash)` pairs of the projection's terms —, and the last
point of the run writes the accumulator to the output's column tile. So after point `t` the accumulator holds the sum
of the contributions of source tiles `0 … t % 256`, by induction on the point, and the two write-backs, which tile the
output, leave every entry at the sum over all 256 source tiles: the projection, tile by tile. -/

open scoped BigOperators

noncomputable section

namespace Cert.KernelIdeal.KerValue

open Cert.KernelIdeal Cert.KernelIdeal.Gen Cert.KernelIdeal.Value Cert.KernelIdeal.Pieces Cert.KernelIdeal.PointValue
open Idealize.ShloMosaic Idealize.ShloMosaic.TcCoe Idealize.SL.Sem Idealize.ShloMosaic.ValueIdx Cert.SignProj
open Idealize.ShloMosaic.Pipeline (Dat)

variable (m : (ℓ : Loc nD τ sig) → Buf (Elt Ideal) ℓ) (ρ : Dev nD → PrngReg)

/-- The three argument arrays as launched. -/
abbrev xArr (c : Dev nD) : (⟨2, ![64, 262144]⟩ : Shape).Idx → EReal := m ((c : Thread nD τ).loc main_arg0)
abbrev slotArr (c : Dev nD) : IVec ⟨2, ![262144, 4]⟩ 32 := m ((c : Thread nD τ).loc main_arg1)
abbrev bitArr (c : Dev nD) : IVec ⟨2, ![262144, 4]⟩ 32 := m ((c : Thread nD τ).loc main_arg2)

/-- The blocks point `t` is called with, at their literal types. -/
abbrev xblk (c : Dev nD) (t : Fin cfg0.N) : Vec Ideal S64x1024 .f32 := iblk m c 0 t
abbrev sblk (c : Dev nD) (t : Fin cfg0.N) : Vec Ideal S4x1024 .i32 := iblk m c 1 t
abbrev bblk (c : Dev nD) (t : Fin cfg0.N) : Vec Ideal S4x1024 .i32 := iblk m c 2 t

/-- The printed index maps over the grid: the three inputs sit at source tile `t % 256`, the output at column tile
    `t / 256`, which is also the point's first grid coordinate. -/
theorem idx_facts : ∀ t : Fin cfg0.N,
    win0_0.index t (0 : Fin 2) = 0 ∧ win0_0.index t (1 : Fin 2) = t.val % 256
    ∧ win0_1.index t (0 : Fin 2) = 0 ∧ win0_1.index t (1 : Fin 2) = t.val % 256
    ∧ win0_2.index t (0 : Fin 2) = 0 ∧ win0_2.index t (1 : Fin 2) = t.val % 256
    ∧ win0_3.index t (0 : Fin 2) = 0 ∧ win0_3.index t (1 : Fin 2) = t.val / 256
    ∧ (grid0.coords t 0).val = t.val / 256 :=
  (by decide +kernel : ∀ t : Fin grid0.N, _)

/-- The source tile of point `t`. -/
abbrev srcTile (t : Fin cfg0.N) : Fin 256 := ⟨t.val % 256, Nat.mod_lt _ (by decide)⟩

/-- The transposed tables the region finds: the program's two host operations before the call. -/
theorem V_slotT (c : Dev nD) : (V m c main_v0 : S4x262144.Idx → BitVec 32)
    = transpose S4x262144 [1, 0] (m ((c : Thread nD τ).loc main_arg1)) transposes_S262144x4_S4x262144_1_0 := by
  dsimp only [Gen.V, Gen.hostOps0]; after_results

theorem V_bitT (c : Dev nD) : (V m c main_v1 : S4x262144.Idx → BitVec 32)
    = transpose S4x262144 [1, 0] (m ((c : Thread nD τ).loc main_arg2)) transposes_S262144x4_S4x262144_1_0 := by
  dsimp only [Gen.V, Gen.hostOps0]; after_results

/-- The block of `x` at point `t` is its source tile's columns. -/
theorem xblk_apply (c : Dev nD) (t : Fin cfg0.N) (b : Fin 64) (d : Fin 1024) :
    xblk m c t (ix2 b d) = xArr m c (ix2 b (tileCol (srcTile t) d)) := by
  obtain ⟨e00, e01, -⟩ := idx_facts t
  show iblk m c 0 t (ix2 b d) = _
  unfold iblk
  rw [View.read_apply]
  show V m c main_arg0 _ = _
  rw [V_main_arg0]
  refine congrArg (m ((c : Thread nD τ).loc main_arg0)) ?_
  funext a; apply Fin.ext
  match a with
  | ⟨0, _⟩ => show win0_0.index t (0 : Fin 2) * 64 + 1 * b.val = b.val; rw [e00]; omega
  | ⟨1, _⟩ => show win0_0.index t (1 : Fin 2) * 1024 + 1 * d.val = t.val % 256 * 1024 + d.val; rw [e01]; omega

/-- The block of slot words at point `t`: row `cc` holds hash `cc` of the source tile's columns. -/
theorem sblk_apply (c : Dev nD) (t : Fin cfg0.N) (cc : Fin 4) (d : Fin 1024) :
    (sblk m c t (ix2 cc d) : BitVec 32) = slotArr m c (ix2 (tileCol (srcTile t) d) cc) := by
  obtain ⟨-, -, e10, e11, -⟩ := idx_facts t
  show iblk m c 1 t (ix2 cc d) = _
  unfold iblk
  rw [View.read_apply]
  show (V m c main_v0 : S4x262144.Idx → BitVec 32) _ = _
  rw [V_slotT]
  refine (congrArg _ ?_).trans (transpose_ix2_apply (m ((c : Thread nD τ).loc main_arg1)) transposes_S262144x4_S4x262144_1_0 cc (tileCol (srcTile t) d))
  funext a; apply Fin.ext
  match a with
  | ⟨0, _⟩ => show win0_1.index t (0 : Fin 2) * 4 + 1 * cc.val = cc.val; rw [e10]; omega
  | ⟨1, _⟩ => show win0_1.index t (1 : Fin 2) * 1024 + 1 * d.val = t.val % 256 * 1024 + d.val; rw [e11]; omega

/-- The block of sign bits at point `t`, likewise. -/
theorem bblk_apply (c : Dev nD) (t : Fin cfg0.N) (cc : Fin 4) (d : Fin 1024) :
    (bblk m c t (ix2 cc d) : BitVec 32) = bitArr m c (ix2 (tileCol (srcTile t) d) cc) := by
  obtain ⟨-, -, -, -, e20, e21, -⟩ := idx_facts t
  show iblk m c 2 t (ix2 cc d) = _
  unfold iblk
  rw [View.read_apply]
  show (V m c main_v1 : S4x262144.Idx → BitVec 32) _ = _
  rw [V_bitT]
  refine (congrArg _ ?_).trans (transpose_ix2_apply (m ((c : Thread nD τ).loc main_arg2)) transposes_S262144x4_S4x262144_1_0 cc (tileCol (srcTile t) d))
  funext a; apply Fin.ext
  match a with
  | ⟨0, _⟩ => show win0_2.index t (0 : Fin 2) * 4 + 1 * cc.val = cc.val; rw [e20]; omega
  | ⟨1, _⟩ => show win0_2.index t (1 : Fin 2) * 1024 + 1 * d.val = t.val % 256 * 1024 + d.val; rw [e21]; omega

/-! ## One point's contribution -/

theorem hN : cfg0.N = 512 := N_0

/-- The output column of lane `j` in the column tile of point `n`. -/
abbrev outCol (n : ℕ) (hn : n < 512) (j : Fin 2048) : Fin 4096 :=
  ⟨n / 256 * 2048 + j.val, by have := j.isLt; omega⟩

/-- Source tile `e`'s contribution to output entry `(b, p)`: the projection's terms of the tile's pairs. -/
def tileSum (c : Dev nD) (b : Fin 64) (p : Fin 4096) (e : ℕ) : EReal :=
  if h : e < 256 then
    ∑ cc : Fin 4, ∑ d : Fin 1024, term (xArr m c) (slotArr m c) (bitArr m c) b p (tileCol ⟨e, h⟩ d) cc
  else 0

/-- What column `d` of the point's blocks contributes through hash `cc` is the projection's term of the pair
    `(source column, cc)` at the output column of lane `j`. -/
theorem hit_eq_term (c : Dev nD) (t : Fin cfg0.N) (b : Fin 64) (j : Fin 2048) (cc : Fin 4) (d : Fin 1024) :
    hit (grid0.coords t) (xblk m c t) (sblk m c t) (bblk m c t) b j cc d
      = term (xArr m c) (slotArr m c) (bitArr m c) b (outCol t.val (lt_of_lt_of_eq t.isLt hN) j) (tileCol (srcTile t) d) cc := by
  obtain ⟨-, -, -, -, -, -, -, -, e8⟩ := idx_facts t
  unfold hit term
  rw [xblk_apply, sblk_apply, bblk_apply, e8]

/-- The four updates of point `t` add its source tile's contribution to every entry of the accumulator. -/
theorem point_apply (c : Dev nD) (t : Fin cfg0.N) (acc : Vec Ideal S64x2048 .f32) (b : Fin 64) (j : Fin 2048) :
    pointAcc (grid0.coords t) (xblk m c t) (sblk m c t) (bblk m c t) acc (ix2 b j)
      = acc (ix2 b j) + tileSum m c b (outCol t.val (lt_of_lt_of_eq t.isLt hN) j) (t.val % 256) := by
  unfold pointAcc
  rw [pay9_apply, pay8_apply, pay5_apply, pay4_apply]
  unfold tileSum
  rw [dif_pos (Nat.mod_lt _ (by decide)), Fin.sum_univ_four]
  simp only [hit_eq_term, add_assoc]

/-- The block the first point of a run stores first is zero. -/
theorem zero_apply (y : S64x2048.Idx) : k0_pay1 (F := Ideal) y = 0 := by
  unfold k0_pay1
  rw [shapeCast_self]
  exact Ideal.ofBits_zero_f32

/-! ## The accumulator after each point -/

/-- After point `n` the accumulator holds, at every entry, the contributions of source tiles `0 … n % 256` to the
    entry's output column: by induction on the point. -/
theorem acc_eq (c : Dev nD) : ∀ (n : ℕ) (h : n < cfg0.N) (b : Fin 64) (j : Fin 2048),
    (outsAt0 m c n h).2 (ix2 b j)
      = ∑ e ∈ Finset.range (n % 256 + 1), tileSum m c b (outCol n (lt_of_lt_of_eq h hN) j) e
  | 0, h, b, j => by
    rw [outsAt0_A m c ⟨0, h⟩ rfl (by show ¬ (0 % 256 = 255); decide)]
    dsimp only
    rw [sout_A]
    refine (point_apply m c ⟨0, h⟩ _ b j).trans ?_
    rw [zero_apply, zero_add]
    show tileSum m c b _ 0 = ∑ e ∈ Finset.range 1, _
    rw [Finset.sum_range_one]
  | n + 1, h, b, j => by
    have hN' : n + 1 < 512 := lt_of_lt_of_eq h hN
    by_cases h0 : (n + 1) % 256 = 0
    · have h1 : ¬ (n + 1) % 256 = 255 := by omega
      rw [outsAt0_A m c ⟨n + 1, h⟩ h0 h1]
      dsimp only
      rw [sout_A]
      refine (point_apply m c ⟨n + 1, h⟩ _ b j).trans ?_
      rw [zero_apply, zero_add]
      show tileSum m c b _ ((n + 1) % 256) = ∑ e ∈ Finset.range ((n + 1) % 256 + 1), _
      rw [h0, Finset.sum_range_one]
    · have e1 : (n + 1) % 256 = n % 256 + 1 := by omega
      have e2 : outCol n (by omega) j = outCol (n + 1) hN' j :=
        Fin.ext (by show n / 256 * 2048 + j.val = (n + 1) / 256 * 2048 + j.val; omega)
      by_cases h1 : (n + 1) % 256 = 255
      · rw [outsAt0_C m c ⟨n + 1, h⟩ h0 h1]
        dsimp only
        rw [sout_C]
        refine (point_apply m c ⟨n + 1, h⟩ _ b j).trans ?_
        show (outsAt0 m c n _).2 (ix2 b j) + tileSum m c b (outCol (n + 1) hN' j) ((n + 1) % 256) = _
        rw [acc_eq c n _ b j, e2, e1, Finset.sum_range_succ (n := n % 256 + 1)]
      · rw [outsAt0_B m c ⟨n + 1, h⟩ h0 h1]
        dsimp only
        rw [sout_B]
        refine (point_apply m c ⟨n + 1, h⟩ _ b j).trans ?_
        show (outsAt0 m c n _).2 (ix2 b j) + tileSum m c b (outCol (n + 1) hN' j) ((n + 1) % 256) = _
        rw [acc_eq c n _ b j, e2, e1, Finset.sum_range_succ (n := n % 256 + 1)]

/-- The same at any index of the accumulator. -/
theorem acc_eq_idx (c : Dev nD) (n : ℕ) (h : n < cfg0.N) (y : S64x2048.Idx) :
    (outsAt0 m c n h).2 y
      = ∑ e ∈ Finset.range (n % 256 + 1), tileSum m c (y 0) (outCol n (lt_of_lt_of_eq h hN) (y 1)) e :=
  (congrArg (outsAt0 m c n h).2 (eq_ix2 (n0 := 64) (n1 := 2048) y)).trans (acc_eq m c n h (y 0) (y 1))

/-! ## The write-backs and the result array -/

/-- THE WRITE-BACK of a run's last point writes the projection's entries of its column tile: the accumulator then
    holds all 256 source tiles' contributions, which is the projection tile by tile. -/
theorem flushed_eq (c : Dev nD) (t : Fin cfg0.N) (hf : (cfg0.win 3).flush t = true) :
    (dats m 0 c).flushed 3 t
      = ((cfg0.win 3).blk t).view.read (Elt Ideal) (proj (xArr m c) (slotArr m c) (bitArr m c)) := by
  have h1 : t.val % 256 = 255 := (flush0_3 t).mp hf
  have h0 : ¬ t.val % 256 = 0 := by omega
  obtain ⟨-, -, -, -, -, -, e30, e31, -⟩ := idx_facts t
  have e : (outsAt0 m c t.val t.isLt).1 = (outsAt0 m c t.val t.isLt).2 := by
    rw [outsAt0_C m c t h0 h1]; dsimp only; rw [out_C, sout_C]
  rw [flushed3, e]
  refine funext fun (y : S64x2048.Idx) => ?_
  rw [View.read_apply]
  show (outsAt0 m c t.val t.isLt).2 y = _
  have hi0 : (((cfg0.win 3).blk t).view.emb y) 0 = y 0 :=
    Fin.ext (by show win0_3.index t (0 : Fin 2) * 64 + 1 * (y 0).val = (y 0).val; rw [e30]; omega)
  have hi1 : (((cfg0.win 3).blk t).view.emb y) 1 = outCol t.val (lt_of_lt_of_eq t.isLt hN) (y 1) :=
    Fin.ext (by show win0_3.index t (1 : Fin 2) * 2048 + 1 * (y 1).val = t.val / 256 * 2048 + (y 1).val; rw [e31]; omega)
  rw [proj_tiles, hi0, hi1, acc_eq_idx m c t.val t.isLt y, h1, Finset.sum_range]
  refine Finset.sum_congr rfl fun e _ => ?_
  unfold tileSum
  rw [dif_pos e.isLt]

/-- An index of the output is in point `t`'s block iff each coordinate is in the block's range on its axis. -/
theorem mem_blk (t : Fin cfg0.N) (i : S64x4096.Idx) :
    i ∈ ((cfg0.win 3).blk t).view.set ↔ ∀ a : Fin 2, win0_3.index t a * S64x2048.size a ≤ (i a).val
      ∧ (i a).val < win0_3.index t a * S64x2048.size a + S64x2048.size a := by
  show i ∈ ((View.whole main_v2).slice (win0_3.rect t)).set ↔ _
  rw [View.set_slice_whole, Rect.mem_set_unit]
  exact Iff.rfl

/-- THE RESULT ARRAY after the run is the projection of the three arguments: the two runs' last points write the
    two column tiles, which cover the array. -/
theorem final (c : Dev nD) : (dats m 0 c).arrAt 3 cfg0.N = proj (xArr m c) (slotArr m c) (bitArr m c) :=
  (dats m 0 c).arrAt_eq_of_cover 3 _ (flushed_eq m c) fun i => by
    have hi0 : (i 0).val < 64 := (i 0).isLt
    have hi1 : (i 1).val < 4096 := (i 1).isLt
    have ht : (i 1).val / 2048 * 256 + 255 < cfg0.N := by rw [hN]; omega
    refine ⟨⟨(i 1).val / 2048 * 256 + 255, ht⟩, (flush0_3 _).mpr (by show ((i 1).val / 2048 * 256 + 255) % 256 = 255; omega), ?_⟩
    obtain ⟨-, -, -, -, -, -, e30, e31, -⟩ := idx_facts ⟨(i 1).val / 2048 * 256 + 255, ht⟩
    have e31' : win0_3.index ⟨(i 1).val / 2048 * 256 + 255, ht⟩ (1 : Fin 2) = (i 1).val / 2048 := by
      rw [e31]; show ((i 1).val / 2048 * 256 + 255) / 256 = _; omega
    rw [mem_blk]
    intro a
    match a with
    | ⟨0, _⟩ =>
      show win0_3.index _ (0 : Fin 2) * 64 ≤ (i 0).val ∧ (i 0).val < win0_3.index _ (0 : Fin 2) * 64 + 64
      rw [e30]; omega
    | ⟨1, _⟩ =>
      show win0_3.index _ (1 : Fin 2) * 2048 ≤ (i 1).val ∧ (i 1).val < win0_3.index _ (1 : Fin 2) * 2048 + 2048
      rw [e31']; omega

/-- The kernel's run, read: the result array at the projection, the arguments unchanged. -/
theorem run : θ_run defs (onTc (τ := τ) (main (F := Ideal))) ⟨m, fun _ => 0, ρ⟩ fun r => ∀ c : Dev nD,
      r.2.mem ((c : Thread nD τ).loc main_v2) = proj (xArr m c) (slotArr m c) (bitArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.KerValue

end
-- ==== Proof.LibScatterAddCols.lean ====
import Idealize.ShloMosaic.PureOps.Ideal
import Idealize.ShloMosaic.PureOps.Contract
import Idealize.ShloMosaic.Lib.ValueIdx

/-! # A float scatter-add of columns, read at an index

The accumulating float scatter `Host.scatterAdd d x idx upd` at the ideal values is, at every operand element, that
element plus the sum of the update elements that land on it. Worked out here, at any extents, for COLUMNS added into a
rank-2 operand: operand `[B, P]`, scatter indices `[K, 1]` (the index vector on axis 1), updates `[B, K]`; update
column `k` is added, whole, to the operand column named by the scatter index `idx[k, 0]` read as a SIGNED integer, and
is dropped when that integer is not a column of the operand (a `jax.ops.segment_sum` mapped over a leading batch axis:
every batch row scatters its own updates with the one shared list of segment ids). So operand entry `(b, p)` receives
exactly the entries `(b, k)` of the update columns `k` whose scatter index is `p` (`hostScatterAdd_cols_apply`).
Stated at the literal dimension-number record `colAddDims` and for ANY record with these fields. -/

open scoped BigOperators

namespace Idealize.ShloMosaic.ScatterAddCols

open Idealize.ShloMosaic Idealize.ShloMosaic.ValueIdx

/-- The dimension numbers of a column scatter: operand `[B, P]`, scatter indices `[K, 1]`, updates `[B, K]`; the
    update's axis 0 is its window axis and goes to the operand's axis 0, the operand's axis 1 is the inserted
    (scattered) axis. -/
abbrev colAddDims (B P K : Nat)
    (wf : ScatterDims.WF ⟨2, ![B, P]⟩ ⟨2, ![K, 1]⟩ ⟨2, ![B, K]⟩ [0] [1] [1] 1) :
    ScatterDims ⟨2, ![B, P]⟩ ⟨2, ![K, 1]⟩ ⟨2, ![B, K]⟩ where
  updateWindowDims := [0]
  insertedWindowDims := [1]
  scatterDimsToOperandDims := [1]
  indexVectorDim := 1
  wf := wf

section
variable {B P K w : Nat} (wf : ScatterDims.WF ⟨2, ![B, P]⟩ ⟨2, ![K, 1]⟩ ⟨2, ![B, K]⟩ [0] [1] [1] 1)
  (idx : IVec ⟨2, ![K, 1]⟩ w) (b : Fin B) (k : Fin K)

/-- On the column axis the window of update `(b, k)` starts at the scatter index `idx[k, 0]`, read signed. -/
theorem start_col : (colAddDims B P K wf).start (ix2 b k) idx (1 : Fin 2) = (idx (ix2 k (0 : Fin 1))).toInt := by
  unfold ScatterDims.start
  rw [dif_pos (show (1 : Fin 2) ∈ (colAddDims B P K wf).scatterDimsToOperandDims from List.mem_singleton.mpr rfl)]
  have hsi : (colAddDims B P K wf).siIdx (ix2 b k) ⟨List.idxOf (1 : Fin 2) (colAddDims B P K wf).scatterDimsToOperandDims,
      List.idxOf_lt_length_iff.2 (List.mem_singleton.mpr rfl)⟩ = ix2 k (0 : Fin 1) := by
    funext a; refine Fin.ext ?_
    match a with
    | ⟨0, _⟩ => rfl
    | ⟨1, _⟩ => rfl
  rw [hsi]

/-- On the row axis the window starts at `0`: the scatter indices do not name that axis. -/
theorem start_row : (colAddDims B P K wf).start (ix2 b k) idx (0 : Fin 2) = 0 := by
  unfold ScatterDims.start
  rw [dif_neg (show ¬ (0 : Fin 2) ∈ (colAddDims B P K wf).scatterDimsToOperandDims from (by decide : ¬ (0 : Fin 2) ∈ [(1 : Fin 2)]))]

/-- The column axis is inserted: no window coordinate on it. -/
theorem window_col : (colAddDims B P K wf).window (ix2 b k) (1 : Fin 2) = 0 := by
  unfold ScatterDims.window
  have h10 : (1 : Fin 2) ∉ [(0 : Fin 2)] := by decide
  rw [dif_neg (show ¬ (1 : Fin 2) ∈ (colAddDims B P K wf).sKept from h10)]

/-- On the row axis the window coordinate is the update's own row. -/
theorem window_row : (colAddDims B P K wf).window (ix2 b k) (0 : Fin 2) = b.val := by
  unfold ScatterDims.window
  have h00 : (0 : Fin 2) ∈ [(0 : Fin 2)] := by decide
  rw [dif_pos (show (0 : Fin 2) ∈ (colAddDims B P K wf).sKept from h00)]
  rfl

/-- WHERE AN UPDATE LANDS: update `(b, k)` lands on operand entry `(r, p)` exactly when its row is `r` and its scatter
    index is column `p`. -/
theorem resultIdx?_eq_some_iff (r : Fin B) (p : Fin P) :
    (colAddDims B P K wf).resultIdx? (ix2 b k) idx = some (ix2 r p)
      ↔ b = r ∧ (idx (ix2 k (0 : Fin 1))).toInt = (p.val : Int) := by
  have hp : p.val < P := p.isLt
  have hb : b.val < B := b.isLt
  unfold ScatterDims.resultIdx?
  split
  · rename_i h
    rw [Option.some.injEq]
    constructor
    · intro heq
      have e0 := congrArg (fun f : (⟨2, ![B, P]⟩ : Shape).Idx => (f (0 : Fin 2)).val) heq
      have e1 := congrArg (fun f : (⟨2, ![B, P]⟩ : Shape).Idx => (f (1 : Fin 2)).val) heq
      simp only [start_row, start_col, window_row, window_col] at e0 e1
      have h1 := h 1
      rw [start_col, window_col] at h1
      refine ⟨Fin.ext ?_, ?_⟩
      · have : ((0 : Int) + (b.val : Int)).toNat = r.val := e0
        omega
      · have : ((idx (ix2 k (0 : Fin 1))).toInt + ((0 : Nat) : Int)).toNat = p.val := e1
        omega
    · rintro ⟨rfl, hcol⟩
      funext a; refine Fin.ext ?_
      match a with
      | ⟨0, _⟩ =>
        show ((colAddDims B P K wf).start (ix2 b k) idx (0 : Fin 2) + (colAddDims B P K wf).window (ix2 b k) (0 : Fin 2)).toNat = b.val
        rw [start_row, window_row]; omega
      | ⟨1, _⟩ =>
        show ((colAddDims B P K wf).start (ix2 b k) idx (1 : Fin 2) + (colAddDims B P K wf).window (ix2 b k) (1 : Fin 2)).toNat = p.val
        rw [start_col, window_col]; omega
  · rename_i h
    constructor
    · intro heq; exact absurd heq (by simp)
    · rintro ⟨rfl, hcol⟩
      exfalso; apply h; intro a
      match a with
      | ⟨0, _⟩ =>
        show 0 ≤ (colAddDims B P K wf).start (ix2 b k) idx (0 : Fin 2) + (colAddDims B P K wf).window (ix2 b k) (0 : Fin 2)
          ∧ (colAddDims B P K wf).start (ix2 b k) idx (0 : Fin 2) + (colAddDims B P K wf).window (ix2 b k) (0 : Fin 2) < (B : Int)
        rw [start_row, window_row]; omega
      | ⟨1, _⟩ =>
        show 0 ≤ (colAddDims B P K wf).start (ix2 b k) idx (1 : Fin 2) + (colAddDims B P K wf).window (ix2 b k) (1 : Fin 2)
          ∧ (colAddDims B P K wf).start (ix2 b k) idx (1 : Fin 2) + (colAddDims B P K wf).window (ix2 b k) (1 : Fin 2) < (P : Int)
        rw [start_col, window_col]; omega

end

/-- THE COLUMN SCATTER-ADD AT THE LITERAL RECORD, READ AT `(r, p)`: the operand's entry plus the sum, over the update
    columns `k` whose scatter index is `p`, of the update's entry `(r, k)`. -/
theorem hostScatterAdd_colAddDims_apply {B P K w : Nat}
    (wf : ScatterDims.WF ⟨2, ![B, P]⟩ ⟨2, ![K, 1]⟩ ⟨2, ![B, K]⟩ [0] [1] [1] 1)
    (x : (⟨2, ![B, P]⟩ : Shape).Idx → EReal) (idx : IVec ⟨2, ![K, 1]⟩ w) (upd : (⟨2, ![B, K]⟩ : Shape).Idx → EReal)
    (r : Fin B) (p : Fin P) :
    Ideal.hostScatterAdd (colAddDims B P K wf) x idx upd (ix2 r p)
      = x (ix2 r p) + ∑ k ∈ Finset.univ.filter (fun k : Fin K => (idx (ix2 k (0 : Fin 1))).toInt = (p.val : Int)), upd (ix2 r k) := by
  unfold Ideal.hostScatterAdd
  congr 1
  rw [Finset.sum_filter, sum_idx2, Finset.sum_filter]
  rw [Finset.sum_eq_single r]
  · refine Finset.sum_congr rfl fun k _ => ?_
    by_cases ht : (idx (ix2 k (0 : Fin 1))).toInt = (p.val : Int)
    · rw [if_pos ht, if_pos ((resultIdx?_eq_some_iff wf idx r k r p).mpr ⟨rfl, ht⟩)]
    · rw [if_neg ht, if_neg (fun h => ht ((resultIdx?_eq_some_iff wf idx r k r p).mp h).2)]
  · intro b _ hbr
    refine Finset.sum_eq_zero fun k _ => ?_
    rw [if_neg (fun h => hbr ((resultIdx?_eq_some_iff wf idx b k r p).mp h).1)]
  · intro h; exact absurd (Finset.mem_univ r) h

/-- THE COLUMN SCATTER-ADD AT ANY RECORD WITH THESE FIELDS, READ AT `(r, p)`: a record is its fields, so it is the
    literal one. -/
theorem hostScatterAdd_cols_apply {B P K w : Nat} (d : ScatterDims ⟨2, ![B, P]⟩ ⟨2, ![K, 1]⟩ ⟨2, ![B, K]⟩)
    (hu : d.updateWindowDims = [0]) (hi : d.insertedWindowDims = [1]) (hs : d.scatterDimsToOperandDims = [1])
    (hv : d.indexVectorDim = 1)
    (x : (⟨2, ![B, P]⟩ : Shape).Idx → EReal) (idx : IVec ⟨2, ![K, 1]⟩ w) (upd : (⟨2, ![B, K]⟩ : Shape).Idx → EReal)
    (r : Fin B) (p : Fin P) :
    Ideal.hostScatterAdd d x idx upd (ix2 r p)
      = x (ix2 r p) + ∑ k ∈ Finset.univ.filter (fun k : Fin K => (idx (ix2 k (0 : Fin 1))).toInt = (p.val : Int)), upd (ix2 r k) := by
  obtain ⟨uw, iw, sd, iv, wf⟩ := d
  simp only at hu hi hs hv
  subst hu hi hs hv
  exact hostScatterAdd_colAddDims_apply wf x idx upd r p

end Idealize.ShloMosaic.ScatterAddCols
-- ==== Proof.RefSide.lean ====
import proofs.«423473_j12584254177373_3_alg».proof.Proof.Gen.ReferenceIdeal.Read
import proofs.«423473_j12584254177373_3_alg».proof.Proof.Spec
import proofs.«423473_j12584254177373_3_alg».proof.Proof.LibScatterAddCols
import Idealize.ShloMosaic.Lib.ValueIdx
import Idealize.ShloMosaic.Lib.Pipeline.Value
import Idealize.ShloMosaic.PureOps.Ideal.Laws

/-! # The reference computes the projection

The reference flattens the `(D, c)` pairs row-major to positions `k = 4·D + c`, forms the products `x[b, D]` times
the sign factor at every position, and scatter-adds column `k` of the products into the zero array at the column the
flat slot word names (read signed; a column outside the array is dropped). At entry `(b, p)` that is zero plus the sum
over the positions whose slot word is `p`: the projection's sum over the pairs, re-indexed. -/

open scoped BigOperators

noncomputable section

namespace Cert.ReferenceIdeal.RefValue

open Cert.ReferenceIdeal Cert.ReferenceIdeal.Gen Cert.ReferenceIdeal.Read Idealize.ShloMosaic Idealize.ShloMosaic.ValueIdx Cert.SignProj

variable (x0 : (⟨S64x262144, .f32⟩ : BufTy).Contents (Elt Ideal)) (x1 x2 : (⟨S262144x4, .i32⟩ : BufTy).Contents (Elt Ideal))

/-- Over the extended reals the last stage is the exact accumulating scatter of its three operands. -/
theorem last_stage_eq : val_main_v15 (F := Ideal) x0 x1 x2
    = Ideal.hostScatterAdd scatter_S64x4096_S1048576x1_S64x1048576_0_1_1_1 (val_main_v14 (F := Ideal))
        (val_main_v13 (F := Ideal) x1) (val_main_v11 (F := Ideal) x0 x2) := rfl

/-- The array scattered into is zero everywhere. -/
theorem operand_zero (i : S64x4096.Idx) : val_main_v14 (F := Ideal) i = 0 := by
  rw [val_main_v14_apply, val_main_v12_apply, val_main_cst_apply]
  exact Ideal.ofBits_zero_f32

/-- The scatter index of flat position `k` is the slot word of the pair `(k / 4, k % 4)`. -/
theorem index_at (k : Fin 1048576) :
    (val_main_v13 (F := Ideal) x1 (ix2 k (0 : Fin 1)) : BitVec 32) = x1 (ix2 (flatRow k) (flatHash k)) := by
  rw [val_main_v13_apply, val_main_v5_apply]
  refine congrArg x1 ?_
  funext a; apply Fin.ext
  match a with
  | ⟨0, _⟩ => rfl
  | ⟨1, _⟩ => rfl

/-- The update at row `b`, flat position `k`: `x[b, k / 4]` times the sign factor of the pair `(k / 4, k % 4)` —
    the two broadcasts, the product and the row-major flattening read at an index. -/
theorem update_at (b : Fin 64) (k : Fin 1048576) :
    val_main_v11 (F := Ideal) x0 x2 (ix2 b k)
      = x0 (ix2 b (flatRow k)) * signOf (x2 (ix2 (flatRow k) (flatHash k))) := by
  have hb := b.isLt; have hk := k.isLt
  rw [val_main_v11_apply, val_main_v10_apply, val_main_v8_apply, val_main_v6_apply, val_main_v9_apply, val_main_v7_apply,
    val_main_v4_apply, val_main_v3_apply, val_main_v1_apply, val_main_v0_apply, val_main_v2_apply, val_main_c_apply,
    val_main_c_0_apply]
  have e1 : idx_main_v6 (idx_main_v8 (idx_main_v11 (ix2 b k))) = ix2 b (flatRow k) := by
    funext a; apply Fin.ext
    match a with
    | ⟨0, _⟩ => show (b.val * 1048576 + k.val) / 1048576 = b.val; omega
    | ⟨1, _⟩ => show (b.val * 1048576 + k.val) / 4 % 262144 = k.val / 4; omega
  have e2 : idx_main_v7 (idx_main_v9 (idx_main_v11 (ix2 b k))) = ix2 (flatRow k) (flatHash k) := by
    funext a; apply Fin.ext
    match a with
    | ⟨0, _⟩ => show (b.val * 1048576 + k.val) / 4 % 262144 = k.val / 4; omega
    | ⟨1, _⟩ => show (b.val * 1048576 + k.val) % 4 = k.val % 4; omega
  rw [e1, e2]
  rfl

/-- The reference's result, as the last stage states it, is the projection of its three arguments: at an entry, zero
    plus the updates whose slot word is the entry's column, summed over the flat positions, which is the sum over the
    pairs. -/
theorem ref_proj : val_main_v15 (F := Ideal) x0 x1 x2 = proj x0 x1 x2 := by
  funext i
  obtain ⟨b, p, rfl⟩ : ∃ (b : Fin 64) (p : Fin 4096), i = ix2 b p := ⟨i 0, i 1, eq_ix2 i⟩
  rw [last_stage_eq, ScatterAddCols.hostScatterAdd_cols_apply _ rfl rfl rfl rfl, operand_zero, zero_add, Finset.sum_filter]
  simp only [index_at, update_at]
  exact sum_flat (fun D c => term x0 x1 x2 b p D c)

end Cert.ReferenceIdeal.RefValue

end
-- ==== Proof.lean ====
/- The sparse sign projection: a tiled accumulation of one-hot matrix products against a segment sum.

   Both programs take `x` (`64 × 262144` floats) and two `262144 × 4` tables of 32-bit words, slots and sign bits.
   Every pair (source column `D`, hash `c`) has a target column — its slot word read as a signed integer — and a
   sign factor `2·bit − 1`; output entry `(b, p)` is the sum of `x[b, D]` times the sign factor over the pairs whose
   target is `p` (`Cert.SignProj.proj`). A pair whose target is outside `0 … 4095` reaches no entry in either program.

   The reference scales `x` by the sign factors, flattens the pairs row-major and scatter-adds the `1048576` columns
   of products into a zero array at their slot words: at an entry, zero plus the sum over the flat positions whose
   slot word is the entry's column, which is the sum over the pairs re-indexed (`RefValue.ref_proj`).

   The kernel walks a `2 × 256` grid: two column tiles of `2048` output columns, and for each of them the `256`
   source tiles of `1024` columns in turn. At a point it adds to a `64 × 2048` accumulator, for each hash, the product of
   the sign-scaled tile of `x` with the 0/1 matrix that is one at `(d, j)` exactly when the slot word of `(d, hash)`
   is the column tile's first column plus `j`; over the extended reals a product with that matrix is the sum of the
   selected entries, so a point adds its source tile's terms. The accumulator is zeroed at a run's first point and
   written to the output at its last, so each output entry ends at the sum over all source tiles
   (`KerValue.final`): the same sum, tile by tile. Only commutativity and associativity of the sum and
   `a · 1 = a`, `a · 0 = 0` are used, so the precondition (finite inputs) is never opened.

   The three frames are the generated ones (the reference's is its generated run with the result dropped), and the
   idealization rewrote nothing, so its conjunct is `True`. -/
import proofs.«423473_j12584254177373_3_alg».proof.Defs
import proofs.«423473_j12584254177373_3_alg».proof.Proof.Gen.Kernel
import proofs.«423473_j12584254177373_3_alg».proof.Proof.Gen.Kernel.Skeleton
import proofs.«423473_j12584254177373_3_alg».proof.Proof.Gen.Kernel.Launch
import proofs.«423473_j12584254177373_3_alg».proof.Proof.Gen.Kernel.Points
import proofs.«423473_j12584254177373_3_alg».proof.Proof.Gen.Kernel.Frame
import proofs.«423473_j12584254177373_3_alg».proof.Proof.Gen.KernelIdeal
import proofs.«423473_j12584254177373_3_alg».proof.Proof.Gen.KernelIdeal.Skeleton
import proofs.«423473_j12584254177373_3_alg».proof.Proof.Gen.KernelIdeal.Launch
import proofs.«423473_j12584254177373_3_alg».proof.Proof.Gen.KernelIdeal.Points
import proofs.«423473_j12584254177373_3_alg».proof.Proof.Gen.KernelIdeal.Frame
import proofs.«423473_j12584254177373_3_alg».proof.Proof.Gen.ReferenceIdeal
import proofs.«423473_j12584254177373_3_alg».proof.Proof.Gen.Pre_finite_inputs
import proofs.«423473_j12584254177373_3_alg».proof.Proof.Gen.KernelIdeal.Value
import proofs.«423473_j12584254177373_3_alg».proof.Proof.Gen.ReferenceIdeal.Run
import proofs.«423473_j12584254177373_3_alg».proof.Proof.Gen.ReferenceIdeal.Read
import proofs.«423473_j12584254177373_3_alg».proof.Proof.KernelSide
import proofs.«423473_j12584254177373_3_alg».proof.Proof.RefSide
import Idealize.ShloMosaic.Adequacy
import Idealize.ShloMosaic.Init

noncomputable section

namespace Cert.Proof

open Idealize.ShloMosaic Idealize.SL.Sem Cert.Kernel

/-- The word-level kernel runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the projection of their arguments, and the arguments agree. -/
theorem algebraic : Cert.algebraic_KernelIdeal_ReferenceIdeal := by
  intro m ρ m' ρ' _ hagree
  refine ⟨fun c => Cert.SignProj.proj (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.ref_proj,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
